-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S64 : Shape := ⟨1, ![64]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel

variable [Facts]

def fn {F : FTy → Type} [FloatOps F] (main_arg0 : FVec F S64x1024x64 .f32) (main_arg1 : FVec F S64x1024x64 .f32) (main_arg2 : FVec F S64x1024x64 .f32) (main_arg3 : IVec S64 32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S64x1024x64 .f32 := Host.absf main_arg1
  let main_cst_0 : FVec F S_ .f32 := constant S_ .f32 0x7F800000#32
  let main_v5 : FVec F S64x1024x64 .f32 := broadcastInDim S64x1024x64 ![] bcast_S_S64x1024x64 main_cst_0
  let main_v6 : IVec S64x1024x64 1 := cmpf .olt main_v4 main_v5
  let main_c_1 : IVec S_ 1 := constantI S_ 1 1#1
  let main_v7 : IVec S_ 1 := (fun x v => Host.reduce IntOp.andi x v reducesTo_S64x1024x64_S_d0_1_2 h_S_) main_v6 main_c_1
  let main_v8 : IVec S_ 1 := andi main_v3 main_v7
  let main_v9 : FVec F S64x1024x64 .f32 := Host.absf main_arg2
  let main_cst_2 : FVec F S_ .f32 := constant S_ .f32 0x7F800000#32
  let main_v10 : FVec F S64x1024x64 .f32 := broadcastInDim S64x1024x64 ![] bcast_S_S64x1024x64 main_cst_2
  let main_v11 : IVec S64x1024x64 1 := cmpf .olt main_v9 main_v10
  let main_c_3 : IVec S_ 1 := constantI S_ 1 1#1
  let main_v12 : IVec S_ 1 := (fun x v => Host.reduce IntOp.andi x v reducesTo_S64x1024x64_S_d0_1_2 h_S_) main_v11 main_c_3
  let main_v13 : IVec S_ 1 := andi main_v8 main_v12
  main_v13
-- ==== Kernel.lean ====
abbrev S64x1024x64 : Shape := ⟨3, ![64, 1024, 64]⟩
abbrev S64 : Shape := ⟨1, ![64]⟩
abbrev S1x1024x64 : Shape := ⟨3, ![1, 1024, 64]⟩
abbrev S1 : Shape := ⟨1, ![1]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 8
  | .smem => 1
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64x1024x64, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .smem, ⟨0, _⟩ => ⟨S64, .i32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  numel1_S1 : S1.numel = 1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  transposes_S1024x64_p1_0_S64x1024 : S1024x64.Transposes [1, 0] S64x1024
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1024x64 : S1024x64.ShapeCasts S1x1024x64
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x1024x64.size a
  hwx0_0 : ∀ i : grid0.Coords, EltTy.bits .f32 = 32 ∨ (Rect.block (s := S64x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x1024x64.size a
  hwx0_2 : ∀ i : grid0.Coords, EltTy.bits .f32 = 32 ∨ (Rect.block (s := S64x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x1024x64.size a
  hwx0_3 : ∀ i : grid0.Coords, EltTy.bits .f32 = 32 ∨ (Rect.block (s := S64x1024x64) S1x1024x64.size (cc0_transform_3 i) (hinb0_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev spec0_0 : Pipeline.WinSpec sig grid0.rank :=
  Pipeline.WinSpec.ofSpec (Memref.whole main_arg0) S1x1024x64.size reads0_0 false false 2 stage0_0 sem0_0 nbuf0_0 hstage0_0

abbrev spec0_1 : Pipeline.WinSpec sig grid0.rank :=
  Pipeline.WinSpec.ofSpec (Memref.whole main_arg1) S1x1024x64.size reads0_1 false false 2 stage0_1 sem0_1 nbuf0_1 hstage0_1

abbrev spec0_2 : Pipeline.WinSpec sig grid0.rank :=
  Pipeline.WinSpec.ofSpec (Memref.whole main_arg2) S1x1024x64.size reads0_2 false false 2 stage0_2 sem0_2 nbuf0_2 hstage0_2

abbrev spec0_3 : Pipeline.WinSpec sig grid0.rank :=
  Pipeline.WinSpec.ofSpec (Memref.whole main_v0) S1x1024x64.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x1024x64 : Shape := ⟨3, ![64, 1024, 64]⟩
abbrev S64 : Shape := ⟨1, ![64]⟩
abbrev S64x1024x1024 : Shape := ⟨3, ![64, 1024, 1024]⟩
abbrev S_ : Shape := ⟨0, ![]⟩
abbrev S1024 : Shape := ⟨1, ![1024]⟩
abbrev S1x1x1024 : Shape := ⟨3, ![1, 1, 1024]⟩
abbrev S64x1x1 : Shape := ⟨3, ![64, 1, 1]⟩
abbrev S64x1x1024 : Shape := ⟨3, ![64, 1, 1024]⟩
abbrev S64x1024 : Shape := ⟨2, ![64, 1024]⟩
abbrev S64x1024x1 : Shape := ⟨3, ![64, 1024, 1]⟩

abbrev nBuf : Space → Nat
  | .hbm => 34
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64, .i32⟩
  | .hbm, ⟨4, _⟩ => ⟨S64x1024x1024, .f32⟩
  | .hbm, ⟨5, _⟩ => ⟨S_, .f32⟩
  | .hbm, ⟨6, _⟩ => ⟨S64x1024x1024, .f32⟩
  | .hbm, ⟨7, _⟩ => ⟨S64x1024x1024, .f32⟩
  | .hbm, ⟨8, _⟩ => ⟨S1024, .i32⟩
  | .hbm, ⟨9, _⟩ => ⟨S1x1x1024, .i32⟩
  | .hbm, ⟨10, _⟩ => ⟨S64x1x1, .i32⟩
  | .hbm, ⟨11, _⟩ => ⟨S64x1x1024, .i32⟩
  | .hbm, ⟨12, _⟩ => ⟨S64x1x1024, .i32⟩
  | .hbm, ⟨13, _⟩ => ⟨S64x1x1024, .i1⟩
  | .hbm, ⟨14, _⟩ => ⟨S_, .f32⟩
  | .hbm, ⟨15, _⟩ => ⟨S_, .f32⟩
  | .hbm, ⟨16, _⟩ => ⟨S64x1024x1024, .i1⟩
  | .hbm, ⟨17, _⟩ => ⟨S64x1024x1024, .f32⟩
  | .hbm, ⟨18, _⟩ => ⟨S64x1024x1024, .f32⟩
  | .hbm, ⟨19, _⟩ => ⟨S_, .f32⟩
  | .hbm, ⟨20, _⟩ => ⟨S64x1024, .f32⟩
  | .hbm, ⟨21, _⟩ => ⟨S_, .f32⟩
  | .hbm, ⟨22, _⟩ => ⟨S64x1024, .f32⟩
  | .hbm, ⟨23, _⟩ => ⟨S64x1024, .f32⟩
  | .hbm, ⟨24, _⟩ => ⟨S64x1024x1, .f32⟩
  | .hbm, ⟨25, _⟩ => ⟨S64x1024x1024, .f32⟩
  | .hbm, ⟨26, _⟩ => ⟨S64x1024x1024, .f32⟩
  | .hbm, ⟨27, _⟩ => ⟨S64x1024x1024, .f32⟩
  | .hbm, ⟨28, _⟩ => ⟨S_, .f32⟩
  | .hbm, ⟨29, _⟩ => ⟨S64x1024, .f32⟩
  | .hbm, ⟨30, _⟩ => ⟨S64x1024x1, .f32⟩
  | .hbm, ⟨31, _⟩ => ⟨S64x1024x1024, .f32⟩
  | .hbm, ⟨32, _⟩ => ⟨S64x1024x1024, .f32⟩
  | .hbm, ⟨33, _⟩ => ⟨S64x1024x64, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S64x1024x1024 : S_.BroadcastsInDim S64x1024x1024 (![] : Fin 0 → Fin S64x1024x1024.rank)
  bcast_S1024_S1x1x1024_2 : S1024.BroadcastsInDim S1x1x1024 (![2] : Fin 1 → Fin S1x1x1024.rank)
  bcast_S64_S64x1x1_0 : S64.BroadcastsInDim S64x1x1 (![0] : Fin 1 → Fin S64x1x1.rank)
  bcast_S1x1x1024_S64x1x1024_0_1_2 : S1x1x1024.BroadcastsInDim S64x1x1024 (![0, 1, 2] : Fin 3 → Fin S64x1x1024.rank)
  bcast_S64x1x1_S64x1x1024_0_1_2 : S64x1x1.BroadcastsInDim S64x1x1024 (![0, 1, 2] : Fin 3 → Fin S64x1x1024.rank)
  bcast_S64x1x1024_S64x1024x1024_0_1_2 : S64x1x1024.BroadcastsInDim S64x1024x1024 (![0, 1, 2] : Fin 3 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024x64_S64x1024x64_S64x1024x1024_2_2_1_1_0_0_wf : DotDims.WF S64x1024x64 S64x1024x64 S64x1024x1024 [2] [2] [1] [1] [0] [0]
  dot_S64x1024x1024_S64x1024x64_S64x1024x64_2_1_1_2_0_0_wf : DotDims.WF S64x1024x1024 S64x1024x64 S64x1024x64 [2] [1] [1] [2] [0] [0]

variable [Facts₀]

def dot_S64x1024x64_S64x1024x64_S64x1024x1024_2_2_1_1_0_0 : DotDims S64x1024x64 S64x1024x64 S64x1024x1024 where
  lhsContracting := [2]
  rhsContracting := [2]
  lhsNonContracting := [1]
  rhsNonContracting := [1]
  lhsBatch := [0]
  rhsBatch := [0]
  wf := dot_S64x1024x64_S64x1024x64_S64x1024x1024_2_2_1_1_0_0_wf
def dot_S64x1024x1024_S64x1024x64_S64x1024x64_2_1_1_2_0_0 : DotDims S64x1024x1024 S64x1024x64 S64x1024x64 where
  lhsContracting := [2]
  rhsContracting := [1]
  lhsNonContracting := [1]
  rhsNonContracting := [2]
  lhsBatch := [0]
  rhsBatch := [0]
  wf := dot_S64x1024x1024_S64x1024x64_S64x1024x64_2_1_1_2_0_0_wf

class Facts : Prop extends Facts₀ where

variable [Facts]
-- ==== Proof.BlockRun.lean ====
/-
  What one run of the kernel body leaves in the output block, as a value.

  The body runs once per grid point on whole staging blocks: it reads the batch entry's length word off the prefetched
  table at the point's own coordinate, reads the three input blocks whole, and stores one [1, 1024, 64] value over the
  whole output block.  The frame run records the store as a single piece covering the block, so reading the block back
  gives that piece's payload: the body's pure term `k0_pay1` applied to the length word and the three input blocks
  (`out_block`, at any float values).  The word itself is the table's entry at the point's coordinate, the table being a
  whole [64] buffer and the coordinate below 64 (`tableWord_eq`).
-/
import proofs.«431440_j6030134084023_1_alg».proof.Proof.Gen.KernelIdeal.Frame
import Idealize.ShloMosaic.Lib.Pipeline.Value
import Idealize.ShloMosaic.Lib.ValueIdx

set_option maxRecDepth 16384

noncomputable section

namespace Cert.KernelIdeal.BlockRun

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-- The store's rectangle starts at the block's origin. -/
theorem zero_off : (![0, 0, 0] : Fin 3 → Nat) = fun _ => 0 := by
  funext a; fin_cases a <;> rfl

/-- The word the body reads off the prefetched table at a grid point. -/
def tableWord (c : Dev nD) (i : grid0.Coords) (xt0 : TbBuf0 (F := F) c tbM0_0) : Elt F .i32 :=
  View.readAt (Elt F) tbM0_0.view (Rect.unit (s := S64) (k0_off1 i) S1.size (k0_off1_inb i)).toLoadRect xt0
    (Shape.Idx.first (numel1_S1.symm ▸ Nat.one_pos))

/-- The output block after the body: its one store's payload, the body's term of the length word and the input blocks. -/
theorem out_block (c : Dev nD) (i : grid0.Coords) (arg2 : Memref sig .tc .vmem S1x1024x64 .f32) (harg2 : arg2.IsWhole) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole)
    (x0 : Vec F S1x1024x64 .f32) (x1 : Vec F S1x1024x64 .f32) (x2 : Vec F S1x1024x64 .f32) (xt0 : TbBuf0 (F := F) c tbM0_0) :
    out0_A_3 c i arg2 harg2 arg3 harg3 arg4 harg4 arg5 harg5 x0 x1 x2 xt0 = k0_pay1 (tableWord c i xt0) x0 x1 x2 := by
  unfold out0_A_3
  rw [View.read_writes_eq_canon _ _ _ (cover0_A_3 c i arg2 harg2 arg3 harg3 arg4 harg4 arg5 harg5 x0 x1 x2 xt0)]
  unfold kernelRun0_A
  dsimp only
  sl_unfold_words
  rw [View.canon_unit_zero zero_off]
  simp only [View.readAt_eq_ld, Memref.IsWhole.read_unread, View.ld_unit_zero (S := S1x1024x64) zero_off]
  rfl

/-- The length word is the table's entry at the point's coordinate. -/
theorem tableWord_eq (c : Dev nD) (i : grid0.Coords) (xt0 : TbBuf0 (F := F) c tbM0_0) :
    tableWord c i xt0 = xt0 (ValueIdx.ix1 (i 0)) := by
  unfold tableWord
  rw [View.readAt_apply, View.read_apply]
  simp only [cast_eq]
  show xt0 _ = xt0 _
  congr 1
  funext a
  apply Fin.ext
  fin_cases a
  have h0 : (Shape.Idx.first (s := S1) (numel1_S1.symm ▸ Nat.one_pos) (0 : Fin 1)).val = 0 := by
    have := (Shape.Idx.first (s := S1) (numel1_S1.symm ▸ Nat.one_pos) (0 : Fin 1)).isLt
    have e : S1.size (0 : Fin 1) = 1 := by decide
    omega
  have hi : (i 0).val < 64 := (i 0).isLt
  simp only [View.emb_whole, Function.Embedding.refl_apply]
  show (k0_off1 i) 0 + 1 * (Shape.Idx.first (s := S1) (numel1_S1.symm ▸ Nat.one_pos) (0 : Fin 1)).val = (i 0).val
  rw [h0]
  show (BitVec.ofNat 32 (i 0).val).toNat + 1 * 0 = (i 0).val
  rw [BitVec.toNat_ofNat]
  omega

end Cert.KernelIdeal.BlockRun

end
-- ==== Proof.LibSoftmaxRows.lean ====
/-
  Softmax along the rows of a rank-two array, as a vector program spells it, read at an index.

  For an array `s` of shape [a, b] the program takes each row's maximum by a reduction over the second axis from -∞
  (and joins the result with -∞ once more, which changes nothing), views the [a] vector of maxima as an [a, 1] column
  and broadcasts the column across the row, subtracts, exponentiates, sums each row of exponentials from 0 the same
  way, broadcasts the sums, and divides.  At the ideal values every one of these is the textbook operation on the
  extended reals, so entry (i, j) of the result is

      exp (s i j - M i) / ∑ j', exp (s i j' - M i),     M i = max (-∞) (max over j of s i j),

  with the maximum a fold of `max` over the row's coordinates and the quotient the extended reals' `Ideal.div`.
  The two column forms of a layout operation that the reading needs — an [a] vector viewed as [a, 1], an [a, 1]
  column broadcast to [a, b] — are stated first; then a row reduction over the second axis at row `i`; then the
  composite.  Nothing here depends on a particular kernel: shapes are generic in `a` and `b`.
-/
import Idealize.ShloMosaic.PureOps.Ideal.Laws
import Idealize.ShloMosaic.Lib.ValueIdx
import Idealize.ShloMosaic.Lib.Pipeline.Value

noncomputable section

namespace Cert.Lib.SoftmaxRows

open Idealize.ShloMosaic Idealize.ShloMosaic.ValueIdx

variable {α : Type} {a b : ℕ}

/-! ## Two column forms of a layout operation -/

/-- An [a] vector viewed as an [a, 1] column reads, at (i, u), the vector at i: both have row-major position i. -/
theorem colCast_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast across [a, b] reads, at (i, j), the column at (i, 0). -/
theorem colBroadcast_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ fun c => match c with
    | ⟨0, _⟩ => by
        show i.val = if a = 1 then 0 else i.val
        have := i.isLt
        split_ifs <;> omega
    | ⟨1, _⟩ => by
        show (0 : ℕ) = if (1 : ℕ) = 1 then 0 else j.val
        rw [if_pos rfl]

/-! ## A reduction over the second axis, at row i -/

/-- Row i's index with the column coordinate j put back is (i, j). -/
theorem lift_row (h : (⟨2, ![a, b]⟩ : Shape).Reduces [1] ⟨1, ![a]⟩) (i : Fin a) (j : Fin b) :
    h.lift (ix1 i) j = ix2 i j :=
  funext fun c => Fin.ext (by match c with | ⟨0, _⟩ => rfl | ⟨1, _⟩ => rfl)

variable {φ : FTy}

/-- A maximum-reduction over the second axis is, at row i, the fold of `max` from the accumulator's value over the
    row's entries. -/
theorem rowMax_apply (s : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ s acc h hφ hacc (ix1 i)
      = (Finset.univ : Finset (Fin b)).fold max (Ideal.ofBits φ acc) (fun j => s (ix2 i j)) := by
  rw [Ideal.multiReduction_maximumf_single]
  have e : (s ∘ h.lift (ix1 i)) = fun j : Fin b => s (ix2 i j) := funext fun j => congrArg s (lift_row h i j)
  rw [e]
  rfl

/-- A sum-reduction over the second axis is, at row i, the sum of the row's entries. -/
theorem rowSum_apply (s : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ s acc h hφ hacc (ix1 i) = ∑ j : Fin b, s (ix2 i j) := by
  rw [Ideal.multiReduction_add_single]
  exact Finset.sum_congr rfl fun j _ => congrArg s (lift_row h i j)

/-! ## The same row maximum as a host reduction over the last axis of a rank-three array -/

/-- Row (p, i)'s index with the last coordinate j put back is (p, i, j). -/
theorem lift_row3 {c : ℕ} (h : (⟨3, ![a, b, c]⟩ : Shape).Reduces [2] ⟨2, ![a, b]⟩) (p : Fin a) (i : Fin b) (j : Fin c) :
    h.lift (ix2 p i) j = ix3 p i j :=
  funext fun d => Fin.ext (by match d with | ⟨0, _⟩ => rfl | ⟨1, _⟩ => rfl | ⟨2, _⟩ => rfl)

/-- A host reduction by `max` over the last axis is, at (p, i), the fold of `max` from the initial value over the
    entries (p, i, ·). -/
theorem hostRowMax_apply {c : ℕ} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (i : Fin b) :
    Host.reduce (FloatOps.maximumf (F := Ideal) (φ := φ)) x init h' hu (ix2 p i)
      = (Finset.univ : Finset (Fin c)).fold max (init (Shape.Idx.first hu)) (fun j => x (ix3 p i j)) := by
  refine (Host.reduce_eq_fold_single (FloatOps.maximumf (F := Ideal) (φ := φ)) x init h' h hu (ix2 p i)).trans ?_
  have e : (x ∘ h.lift (ix2 p i)) = fun j : Fin c => x (ix3 p i j) := funext fun j => congrArg x (lift_row3 h p i j)
  rw [e]
  rfl

/-! ## The composite -/

/-- The f32 pattern of -∞, which every maximum here starts from. -/
abbrev negInf : EReal := Ideal.ofBits .f32 0xFF800000#32

/-- A row's maximum as the program takes it: the fold of `max` from -∞ over the row, joined with -∞ once more. -/
def rowTop (r : Fin b → EReal) : EReal := max negInf ((Finset.univ : Finset (Fin b)).fold max negInf r)

/-- A row's softmax weight at column j: the exponential of the entry less the row's maximum, over the sum of the
    row's such exponentials (the extended reals' quotient). -/
def rowWeight (r : Fin b → EReal) (j : Fin b) : EReal :=
  Ideal.div (Ideal.exp (r j - rowTop r)) (∑ j' : Fin b, Ideal.exp (r j' - rowTop r))

section Program
variable (s : FVec Ideal ⟨2, ![a, b]⟩ .f32) (hr : (⟨2, ![a, b]⟩ : Shape).Reduces [1] ⟨1, ![a]⟩)
  (hc : (⟨1, ![a]⟩ : Shape).ShapeCasts ⟨2, ![a, 1]⟩) (hb : (⟨2, ![a, 1]⟩ : Shape).Broadcasts ⟨2, ![a, b]⟩)

/-- The vector of row maxima, in the program's operations. -/
def rowTopVec : FVec Ideal ⟨1, ![a]⟩ .f32 :=
  maximumf (broadcast ⟨1, ![a]⟩ (Scalar.ofBits .f32 0xFF800000#32))
    (multiReduction .maximumf [1] ⟨1, ![a]⟩ s 0xFF800000#32 hr (.inl rfl) rfl)

/-- The exponentials of the entries less their row's maximum, in the program's operations. -/
def expRows : FVec Ideal ⟨2, ![a, b]⟩ .f32 :=
  exp (subf s (broadcastTo ⟨2, ![a, b]⟩ (shapeCast ⟨2, ![a, 1]⟩ (rowTopVec s hr) hc) hb))

/-- Softmax along the rows, in the program's operations. -/
def softmaxRows : FVec Ideal ⟨2, ![a, b]⟩ .f32 :=
  divf (expRows s hr hc hb)
    (broadcastTo ⟨2, ![a, b]⟩ (shapeCast ⟨2, ![a, 1]⟩
      (multiReduction .add [1] ⟨1, ![a]⟩ (expRows s hr hc hb) 0x00000000#32 hr (.inl rfl) rfl) hc) hb)

theorem rowTopVec_apply (i : Fin a) : rowTopVec s hr (ix1 i) = rowTop fun j => s (ix2 i j) := by
  unfold rowTopVec rowTop
  exact congrArg (max negInf) (rowMax_apply s 0xFF800000#32 hr (.inl rfl) rfl i)

theorem expRows_apply (i : Fin a) (j : Fin b) :
    expRows s hr hc hb (ix2 i j) = Ideal.exp (s (ix2 i j) - rowTop fun j' => s (ix2 i j')) := by
  unfold expRows
  show Ideal.exp (s (ix2 i j) - broadcastTo ⟨2, ![a, b]⟩ (shapeCast ⟨2, ![a, 1]⟩ (rowTopVec s hr) hc) hb (ix2 i j)) = _
  rw [colBroadcast_apply, colCast_apply, rowTopVec_apply]

/-- Entry (i, j) of the program's softmax is row i's weight at column j. -/
theorem softmaxRows_apply (i : Fin a) (j : Fin b) :
    softmaxRows s hr hc hb (ix2 i j) = rowWeight (fun j' => s (ix2 i j')) j := by
  unfold softmaxRows rowWeight
  rw [divf_apply, colBroadcast_apply, colCast_apply]
  refine congrArg₂ Ideal.div (expRows_apply s hr hc hb i j) ?_
  refine (rowSum_apply (expRows s hr hc hb) 0x00000000#32 hr (.inl rfl) rfl i).trans ?_
  exact Finset.sum_congr rfl fun j' _ => expRows_apply s hr hc hb i j'

end Program

end Cert.Lib.SoftmaxRows

end
-- ==== Proof.Attention.lean ====
/-
  The function both programs compute: scaled dot-product attention with a length mask, over the extended reals.

  For a batch entry with length word `w`, a query row `q` and the key rows `k j`, the score of key position j is the
  inner product ⟨q, k j⟩ times 1/8 (the model dimension is 64, and 1/√64 = 1/8 exactly) when j is below `w` as signed
  32-bit words, and the fill value -10⁶ otherwise.  The scores of a query row are turned into weights by a softmax
  along the row, and the result row is the weighted sum of the value rows.  `attention` states this for the whole
  [64, 1024, 64] arrays, index by index.

  The kernel multiplies the inner product by the f32 pattern of 0.125 and the reference divides it by the pattern of
  8.0; both patterns are exact, and on the extended reals dividing by the real 8 is multiplying by the real 1/8 at every
  argument, infinite ones included (`div_eight`).  That is the only arithmetic law the equivalence needs.
-/
import Idealize.ShloMosaic.PureOps.Ideal
import Idealize.ShloMosaic.Lib.ValueIdx
import proofs.«431440_j6030134084023_1_alg».proof.Proof.LibSoftmaxRows

noncomputable section

namespace Cert.Attention

open Idealize.ShloMosaic Idealize.ShloMosaic.ValueIdx Cert.Lib.SoftmaxRows

/-- The scale 1/√64, as the f32 pattern of 0.125. -/
abbrev eighth : EReal := Ideal.ofBits .f32 0x3E000000#32
/-- The value a masked-out score is replaced by, the f32 pattern of -10⁶. -/
abbrev fill : EReal := Ideal.ofBits .f32 0xC9742400#32

/-- The masked, scaled score of key position j against one query row. -/
def score (w : BitVec 32) (qrow : Fin 64 → EReal) (keys : Fin 1024 → Fin 64 → EReal) (j : Fin 1024) : EReal :=
  Scalar.select (IntOp.cmpi .slt (BitVec.ofNat 32 j.val) w) ((∑ d : Fin 64, qrow d * keys j d) * eighth) fill

/-- One entry of the attended row: the value rows weighted by the softmax of the query row's scores. -/
def attend (w : BitVec 32) (qrow : Fin 64 → EReal) (keys vals : Fin 1024 → Fin 64 → EReal) (d : Fin 64) : EReal :=
  ∑ j : Fin 1024, rowWeight (score w qrow keys) j * vals j d

/-- The whole result array: entry (b, i, d) attends query row (b, i) to batch b's keys and values under b's length. -/
def attention (q k v : (⟨3, ![64, 1024, 64]⟩ : Shape).Idx → EReal) (vl : (⟨1, ![64]⟩ : Shape).Idx → BitVec 32) :
    (⟨3, ![64, 1024, 64]⟩ : Shape).Idx → EReal :=
  fun x => attend (vl (ix1 (x 0 : Fin 64))) (fun d => q (ix3 (x 0 : Fin 64) (x 1 : Fin 1024) d))
    (fun j d => k (ix3 (x 0 : Fin 64) j d)) (fun j d => v (ix3 (x 0 : Fin 64) j d)) (x 2 : Fin 64)

/-- The pattern of 8.0 denotes the real 8, -/
theorem ofBits_eight : Ideal.ofBits .f32 0x41000000#32 = ((8 : ℝ) : EReal) := by
  simp [Ideal.ofBits, Ideal.ieee, -EReal.coe_mul]; norm_num

/-- and the pattern of 0.125 the real 1/8. -/
theorem ofBits_eighth : Ideal.ofBits .f32 0x3E000000#32 = ((1 / 8 : ℝ) : EReal) := by
  simp [Ideal.ofBits, Ideal.ieee, -EReal.coe_mul]; norm_num

/-- Dividing by 8 is multiplying by 1/8, on every extended real. -/
theorem div_eight (x : EReal) : Ideal.div x (Ideal.ofBits .f32 0x41000000#32) = x * eighth := by
  rw [ofBits_eight, Ideal.div_coe (by norm_num : (8 : ℝ) ≠ 0)]
  unfold eighth
  rw [ofBits_eighth]

end Cert.Attention

end
-- ==== Proof.BlockValue.lean ====
/-
  The kernel body's stored value, at the ideal values, entry by entry.

  At one grid point the body holds a [1, 1024, 64] block each of the queries, keys and values and one length word `w`.
  It drops the leading unit axis, multiplies the query block by the transposed key block — entry (i, j) is the inner
  product of query row i and key row j, a sum over the 64 coordinates —, scales by 0.125, replaces the entries whose
  column is not below `w` by -10⁶, takes a softmax along each row, multiplies by the value block — entry (i, d) is the
  sum over the 1024 key positions of weight (i, j) times value (j, d) — and puts the unit axis back.  The narrowing to
  bf16 before each product is the identity at the ideal values, and a product into a zero accumulator is the plain sum.
  So entry (u, i, d) of the stored block is `Cert.Attention.attend` of the word, query row i, and the key and value
  blocks, at coordinate d.
-/
import proofs.«431440_j6030134084023_1_alg».proof.Proof.Gen.KernelIdeal.Skeleton
import proofs.«431440_j6030134084023_1_alg».proof.Proof.Attention
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockValue

open Cert.KernelIdeal Cert.KernelIdeal.Gen
open Idealize.ShloMosaic Idealize.ShloMosaic.ValueIdx
open Cert.Lib.SoftmaxRows Cert.Attention

/-! ## The two matrix products as sums -/

theorem lhs_qk_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_qk_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs_qk_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs_qk_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The first product into a zero accumulator: entry (i, j) is the sum over d of left (i, d) times right (d, j). -/
theorem qk_apply (A : FVec Ideal S1024x64 .bf16) (B : FVec Ideal S64x1024 .bf16) (i j : Fin 1024) :
    matmul dot_S1024x64_S64x1024_S1024x1024_1_0_0_1_n_n none A B (constant (F := Ideal) S1024x1024 .f32 0x00000000#32) (ix2 i j)
      = ∑ d : Fin 64, A (ix2 i d) * B (ix2 d j) := by
  simp only [matmul]
  rw [Ideal.matmul_constant_zero_apply, ← Equiv.sum_comp (ValueIdx.contrEquiv1 dot_S1024x64_S64x1024_S1024x1024_1_0_0_1_n_n 64 rfl rfl).symm]
  refine Finset.sum_congr rfl fun k _ => ?_
  have hk := ValueIdx.contrEquiv1_symm_val dot_S1024x64_S64x1024_S1024x1024_1_0_0_1_n_n 64 rfl rfl k
  have el : dot_S1024x64_S64x1024_S1024x1024_1_0_0_1_n_n.lhsIdx (ix2 i j) ((ValueIdx.contrEquiv1 dot_S1024x64_S64x1024_S1024x1024_1_0_0_1_n_n 64 rfl rfl).symm k) = ix2 i k := funext fun a => Fin.ext (by
    match a with
    | ⟨0, _⟩ => exact lhs_qk_0 _ _
    | ⟨1, _⟩ => exact (lhs_qk_1 _ _).trans hk)
  have er : dot_S1024x64_S64x1024_S1024x1024_1_0_0_1_n_n.rhsIdx (ix2 i j) ((ValueIdx.contrEquiv1 dot_S1024x64_S64x1024_S1024x1024_1_0_0_1_n_n 64 rfl rfl).symm k) = ix2 k j := funext fun a => Fin.ext (by
    match a with
    | ⟨0, _⟩ => exact (rhs_qk_0 _ _).trans hk
    | ⟨1, _⟩ => exact rhs_qk_1 _ _)
  rw [el, er]

theorem lhs_pv_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_pv_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_pv_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_pv_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The second product into a zero accumulator: entry (i, d) is the sum over j of left (i, j) times right (j, d). -/
theorem pv_apply (A : FVec Ideal S1024x1024 .bf16) (B : FVec Ideal S1024x64 .bf16) (i : Fin 1024) (d : Fin 64) :
    matmul dot_S1024x1024_S1024x64_S1024x64_1_0_0_1_n_n none A B (constant (F := Ideal) S1024x64 .f32 0x00000000#32) (ix2 i d)
      = ∑ j : Fin 1024, A (ix2 i j) * B (ix2 j d) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 i d) ((ValueIdx.contrEquiv1 dot_S1024x1024_S1024x64_S1024x64_1_0_0_1_n_n 1024 rfl rfl).symm k) = ix2 i k := funext fun a => Fin.ext (by
    match a with
    | ⟨0, _⟩ => exact lhs_pv_0 _ _
    | ⟨1, _⟩ => exact (lhs_pv_1 _ _).trans hk)
  have er : dot_S1024x1024_S1024x64_S1024x64_1_0_0_1_n_n.rhsIdx (ix2 i d) ((ValueIdx.contrEquiv1 dot_S1024x1024_S1024x64_S1024x64_1_0_0_1_n_n 1024 rfl rfl).symm k) = ix2 k d := funext fun a => Fin.ext (by
    match a with
    | ⟨0, _⟩ => exact (rhs_pv_0 _ _).trans hk
    | ⟨1, _⟩ => exact rhs_pv_1 _ _)
  rw [el, er]

/-! ## The masked scores -/

section Block
variable (w : BitVec 32) (Q K V : Vec Ideal S1x1024x64 .f32)

/-- The body's masked, scaled scores, in its own operations. -/
def scoresOf : FVec Ideal S1024x1024 .f32 :=
  select (cmpi .slt (iota .tc S1024x1024 32 [1] iota_S1024x1024_d1_w32) (broadcast S1024x1024 w))
    (mulf
      (matmul dot_S1024x64_S64x1024_S1024x1024_1_0_0_1_n_n none
        (truncf .bf16 (shapeCast S1024x64 Q shapeCasts_S1x1024x64_S1024x64) bitsLt_bf16_f32)
        (transpose S64x1024 [1, 0] (truncf .bf16 (shapeCast S1024x64 K shapeCasts_S1x1024x64_S1024x64) bitsLt_bf16_f32)
          transposes_S1024x64_p1_0_S64x1024)
        (constant (F := Ideal) S1024x1024 .f32 0x00000000#32))
      (broadcast S1024x1024 (Scalar.ofBits (F := Ideal) .f32 0x3E000000#32)))
    (broadcast S1024x1024 (Scalar.ofBits (F := Ideal) .f32 0xC9742400#32))

/-- Entry (i, j) of the first product is the inner product of query row i and key row j of the blocks. -/
theorem inner_apply (i j : Fin 1024) :
    matmul dot_S1024x64_S64x1024_S1024x1024_1_0_0_1_n_n none
        (truncf .bf16 (shapeCast S1024x64 Q shapeCasts_S1x1024x64_S1024x64) bitsLt_bf16_f32)
        (transpose S64x1024 [1, 0] (truncf .bf16 (shapeCast S1024x64 K shapeCasts_S1x1024x64_S1024x64) bitsLt_bf16_f32)
          transposes_S1024x64_p1_0_S64x1024)
        (constant (F := Ideal) S1024x1024 .f32 0x00000000#32) (ix2 i j)
      = ∑ d : Fin 64, Q (ix3 (0 : Fin 1) i d) * K (ix3 (0 : Fin 1) j d) := by
  refine (qk_apply _ _ i j).trans (Finset.sum_congr rfl fun d _ => ?_)
  refine congrArg₂ (· * ·) ?_ ?_
  · exact shapeCast_1ab_ab_apply Q shapeCasts_S1x1024x64_S1024x64 i d
  · refine (transpose_ix2_apply _ transposes_S1024x64_p1_0_S64x1024 d j).trans ?_
    exact shapeCast_1ab_ab_apply K shapeCasts_S1x1024x64_S1024x64 j d

/-- Entry (i, j) of the masked scores is key position j's score against query row i. -/
theorem scores_apply (i j : Fin 1024) :
    scoresOf w Q K (ix2 i j)
      = score w (fun d => Q (ix3 (0 : Fin 1) i d)) (fun j' d => K (ix3 (0 : Fin 1) j' d)) j := by
  unfold scoresOf score
  have h1 : iota .tc S1024x1024 32 [1] iota_S1024x1024_d1_w32 (ix2 i j) = BitVec.ofNat 32 j.val :=
    iota_single_apply .tc S1024x1024 32 1 iota_S1024x1024_d1_w32 (ix2 i j)
  show Scalar.select (IntOp.cmpi .slt (iota .tc S1024x1024 32 [1] iota_S1024x1024_d1_w32 (ix2 i j)) w)
      (matmul dot_S1024x64_S64x1024_S1024x1024_1_0_0_1_n_n none
        (truncf .bf16 (shapeCast S1024x64 Q shapeCasts_S1x1024x64_S1024x64) bitsLt_bf16_f32)
        (transpose S64x1024 [1, 0] (truncf .bf16 (shapeCast S1024x64 K shapeCasts_S1x1024x64_S1024x64) bitsLt_bf16_f32)
          transposes_S1024x64_p1_0_S64x1024)
        (constant (F := Ideal) S1024x1024 .f32 0x00000000#32) (ix2 i j) * eighth) fill = _
  rw [h1, inner_apply]

/-! ## The stored block -/

/-- Entry (u, i, d) of the value the body stores attends query row i of the query block to the key and value blocks
    under the length word. -/
theorem stored_apply (u : Fin 1) (i : Fin 1024) (d : Fin 64) :
    k0_pay1 (F := Ideal) w Q K V (ix3 u i d)
      = attend w (fun d' => Q (ix3 (0 : Fin 1) i d')) (fun j d' => K (ix3 (0 : Fin 1) j d'))
          (fun j d' => V (ix3 (0 : Fin 1) j d')) d := by
  have e : k0_pay1 (F := Ideal) w Q K V
      = shapeCast S1x1024x64
          (matmul dot_S1024x1024_S1024x64_S1024x64_1_0_0_1_n_n none
            (truncf .bf16 (softmaxRows (scoresOf w Q K) reduces_S1024x1024_S1024 shapeCasts_S1024_S1024x1 broadcasts_S1024x1_S1024x1024) bitsLt_bf16_f32)
            (truncf .bf16 (shapeCast S1024x64 V shapeCasts_S1x1024x64_S1024x64) bitsLt_bf16_f32)
            (constant (F := Ideal) S1024x64 .f32 0x00000000#32))
          shapeCasts_S1024x64_S1x1024x64 := rfl
  rw [e]
  refine (shapeCast_ab_1ab_apply _ shapeCasts_S1024x64_S1x1024x64 u i d).trans ?_
  refine (pv_apply _ _ i d).trans ?_
  unfold attend
  refine Finset.sum_congr rfl fun j _ => ?_
  refine congrArg₂ (· * ·) ?_ ?_
  · refine (softmaxRows_apply (scoresOf w Q K) reduces_S1024x1024_S1024 shapeCasts_S1024_S1024x1 broadcasts_S1024x1_S1024x1024 i j).trans ?_
    refine congrArg (fun r => rowWeight r j) ?_
    funext j'
    exact scores_apply w Q K i j'
  · exact shapeCast_1ab_ab_apply V shapeCasts_S1x1024x64_S1024x64 j d

end Block

end Cert.KernelIdeal.BlockValue

end
-- ==== Proof.KernelValue.lean ====
/-
  The array the kernel leaves: `Cert.Attention.attention` of its argument arrays.

  The grid has one point per batch entry, and every window's block at point t is the [1, 1024, 64] slab of its array
  at batch coordinate t: the index map sends the point to (t, 0, 0), so entry (u, i, d) of a block sits at entry
  (t, i, d) of the array.  The prefetched table holds the lengths, and its side condition is empty because no index map
  reads it.  At point t the body stores, over the whole output block, the attention of the query slab to the key and
  value slabs under length t (Proof/BlockRun.lean, Proof/BlockValue.lean); read through the slab that is the attention
  function of the whole arrays restricted to batch t.  The slabs cover the output array — entry x lies in the slab of
  point x 0 — so the array ends holding the attention function everywhere.
-/
import proofs.«431440_j6030134084023_1_alg».proof.Proof.Gen.KernelIdeal.Frame
import proofs.«431440_j6030134084023_1_alg».proof.Proof.BlockRun
import proofs.«431440_j6030134084023_1_alg».proof.Proof.BlockValue
import Idealize.ShloMosaic.Lib.Pipeline.Value
import Idealize.ShloMosaic.Lib.ValueIdx

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.ValueIdx
open Idealize.ShloMosaic.Pipeline (Dat)
open Cert.Attention

variable (m : (ℓ : Loc nD τ sig) → Buf (Elt Ideal) ℓ) (ρ : Dev nD → PrngReg)

/-- No index map reads the table of lengths, so the table's side condition is empty. -/
theorem tables_ok : Ok m := by
  show ok0 (tbl m)
  unfold ok0
  trivial

/-- The result array both programs are shown to leave: the attention function of the argument arrays. -/
abbrev result (c : Dev nD) : Vec Ideal S64x1024x64 .f32 :=
  attention (V m c main_arg0) (V m c main_arg1) (V m c main_arg2) (V m c main_arg3)

/-! ## The index map: point t's block is the slab at batch t -/

/-- The first block coordinate is the point's own coordinate (it is below 64, so the 32-bit word holds it). -/
theorem word_coord (i : grid0.Coords) : (BitVec.ofNat 32 (i 0).val).toNat = (i 0).val := by
  have : (i 0).val < 64 := (i 0).isLt
  rw [BitVec.toNat_ofNat]
  omega

/-- A point of the one-axis grid has itself as its coordinate. -/
theorem coord_val : ∀ t : Fin grid0.N, (grid0.coords t 0).val = t.val := by decide +kernel

/-! ## The input blocks, read against their arrays -/

variable (hO : Ok m)

/-- The three input blocks at a point, at their literal type. -/
abbrev qblk (c : Dev nD) (t : Fin (cfgM m hO).N) : Vec Ideal S1x1024x64 .f32 := iblk m hO c 0 t
abbrev kblk (c : Dev nD) (t : Fin (cfgM m hO).N) : Vec Ideal S1x1024x64 .f32 := iblk m hO c 1 t
abbrev vblk (c : Dev nD) (t : Fin (cfgM m hO).N) : Vec Ideal S1x1024x64 .f32 := iblk m hO c 2 t

theorem qblk_apply (c : Dev nD) (t : Fin (cfgM m hO).N) (u : Fin 1) (i : Fin 1024) (d : Fin 64) :
    qblk m hO c t (ix3 u i d) = V m c main_arg0 (ix3 (grid0.coords t 0) i d) := by
  unfold qblk iblk
  show V m c main_arg0 ((((cfgM m hO).win 0).blk t).view.emb (ix3 u i d)) = V m c main_arg0 (ix3 (grid0.coords t 0) i d)
  refine congrArg (V m c main_arg0) (funext fun a => Fin.ext ?_)
  have hu : u.val = 0 := by omega
  match a with
  | ⟨0, _⟩ =>
    show cc0_transform_0 (grid0.coords t) 0 * 1 + 1 * u.val = (grid0.coords t 0).val
    rw [hu]
    show (BitVec.ofNat 32 (grid0.coords t 0).val).toNat * 1 + 1 * 0 = (grid0.coords t 0).val
    rw [word_coord]
    omega
  | ⟨1, _⟩ =>
    show cc0_transform_0 (grid0.coords t) 1 * 1024 + 1 * i.val = i.val
    show (0#32 : BitVec 32).toNat * 1024 + 1 * i.val = i.val
    simp
  | ⟨2, _⟩ =>
    show cc0_transform_0 (grid0.coords t) 2 * 64 + 1 * d.val = d.val
    show (0#32 : BitVec 32).toNat * 64 + 1 * d.val = d.val
    simp

theorem kblk_apply (c : Dev nD) (t : Fin (cfgM m hO).N) (u : Fin 1) (i : Fin 1024) (d : Fin 64) :
    kblk m hO c t (ix3 u i d) = V m c main_arg1 (ix3 (grid0.coords t 0) i d) := by
  unfold kblk iblk
  show V m c main_arg1 ((((cfgM m hO).win 1).blk t).view.emb (ix3 u i d)) = V m c main_arg1 (ix3 (grid0.coords t 0) i d)
  refine congrArg (V m c main_arg1) (funext fun a => Fin.ext ?_)
  have hu : u.val = 0 := by omega
  match a with
  | ⟨0, _⟩ =>
    show cc0_transform_1 (grid0.coords t) 0 * 1 + 1 * u.val = (grid0.coords t 0).val
    rw [hu]
    show (BitVec.ofNat 32 (grid0.coords t 0).val).toNat * 1 + 1 * 0 = (grid0.coords t 0).val
    rw [word_coord]
    omega
  | ⟨1, _⟩ =>
    show cc0_transform_1 (grid0.coords t) 1 * 1024 + 1 * i.val = i.val
    show (0#32 : BitVec 32).toNat * 1024 + 1 * i.val = i.val
    simp
  | ⟨2, _⟩ =>
    show cc0_transform_1 (grid0.coords t) 2 * 64 + 1 * d.val = d.val
    show (0#32 : BitVec 32).toNat * 64 + 1 * d.val = d.val
    simp

theorem vblk_apply (c : Dev nD) (t : Fin (cfgM m hO).N) (u : Fin 1) (i : Fin 1024) (d : Fin 64) :
    vblk m hO c t (ix3 u i d) = V m c main_arg2 (ix3 (grid0.coords t 0) i d) := by
  unfold vblk iblk
  show V m c main_arg2 ((((cfgM m hO).win 2).blk t).view.emb (ix3 u i d)) = V m c main_arg2 (ix3 (grid0.coords t 0) i d)
  refine congrArg (V m c main_arg2) (funext fun a => Fin.ext ?_)
  have hu : u.val = 0 := by omega
  match a with
  | ⟨0, _⟩ =>
    show cc0_transform_2 (grid0.coords t) 0 * 1 + 1 * u.val = (grid0.coords t 0).val
    rw [hu]
    show (BitVec.ofNat 32 (grid0.coords t 0).val).toNat * 1 + 1 * 0 = (grid0.coords t 0).val
    rw [word_coord]
    omega
  | ⟨1, _⟩ =>
    show cc0_transform_2 (grid0.coords t) 1 * 1024 + 1 * i.val = i.val
    show (0#32 : BitVec 32).toNat * 1024 + 1 * i.val = i.val
    simp
  | ⟨2, _⟩ =>
    show cc0_transform_2 (grid0.coords t) 2 * 64 + 1 * d.val = d.val
    show (0#32 : BitVec 32).toNat * 64 + 1 * d.val = d.val
    simp

/-- An array read through the output window's block at a point, at its literal type, -/
abbrev oread (t : Fin (cfgM m hO).N) (G : Vec Ideal S64x1024x64 .f32) : Vec Ideal S1x1024x64 .f32 :=
  (((cfgM m hO).win 3).blk t).view.read (Elt Ideal) G

/-- is the array's slab at the point's batch coordinate. -/
theorem oread_apply (t : Fin (cfgM m hO).N) (G : Vec Ideal S64x1024x64 .f32) (u : Fin 1) (i : Fin 1024) (d : Fin 64) :
    oread m hO t G (ix3 u i d) = G (ix3 (grid0.coords t 0) i d) := by
  unfold oread
  show G ((((cfgM m hO).win 3).blk t).view.emb (ix3 u i d)) = G (ix3 (grid0.coords t 0) i d)
  refine congrArg G (funext fun a => Fin.ext ?_)
  have hu : u.val = 0 := by omega
  match a with
  | ⟨0, _⟩ =>
    show cc0_transform_3 (grid0.coords t) 0 * 1 + 1 * u.val = (grid0.coords t 0).val
    rw [hu]
    show (BitVec.ofNat 32 (grid0.coords t 0).val).toNat * 1 + 1 * 0 = (grid0.coords t 0).val
    rw [word_coord]
    omega
  | ⟨1, _⟩ =>
    show cc0_transform_3 (grid0.coords t) 1 * 1024 + 1 * i.val = i.val
    show (0#32 : BitVec 32).toNat * 1024 + 1 * i.val = i.val
    simp
  | ⟨2, _⟩ =>
    show cc0_transform_3 (grid0.coords t) 2 * 64 + 1 * d.val = d.val
    show (0#32 : BitVec 32).toNat * 64 + 1 * d.val = d.val
    simp

/-! ## What a point writes back -/

/-- The output block after the body at point t, entry by entry: the attention function at batch t. -/
theorem outs_apply (c : Dev nD) (t : Fin (cfgM m hO).N) (u : Fin 1) (i : Fin 1024) (d : Fin 64) :
    outsAt0 m hO c t (ix3 u i d) = result m c (ix3 (grid0.coords t 0) i d) := by
  obtain rfl : c = 0 := Subsingleton.elim _ _
  unfold outsAt0
  refine (congrFun (BlockRun.out_block (F := Ideal) 0 (grid0.coords t) (ms0_0 m hO t) (hs0_0 m hO t) (ms0_1 m hO t) (hs0_1 m hO t)
    (ms0_2 m hO t) (hs0_2 m hO t) (ms0_3 m hO t) (hs0_3 m hO t) (qblk m hO 0 t) (kblk m hO 0 t) (vblk m hO 0 t) (tbl m 0)) (ix3 u i d)).trans ?_
  refine (congrArg (fun w => k0_pay1 (F := Ideal) w (qblk m hO 0 t) (kblk m hO 0 t) (vblk m hO 0 t) (ix3 u i d))
    (BlockRun.tableWord_eq (F := Ideal) 0 (grid0.coords t) (tbl m 0))).trans ?_
  refine (BlockValue.stored_apply (tbl m 0 (ix1 (grid0.coords t 0))) (qblk m hO 0 t) (kblk m hO 0 t) (vblk m hO 0 t) u i d).trans ?_
  have hq : (fun d' : Fin 64 => qblk m hO 0 t (ix3 (0 : Fin 1) i d')) = fun d' => V m 0 main_arg0 (ix3 (grid0.coords t 0) i d') :=
    funext fun d' => qblk_apply m hO 0 t 0 i d'
  have hk : (fun (j : Fin 1024) (d' : Fin 64) => kblk m hO 0 t (ix3 (0 : Fin 1) j d')) = fun j d' => V m 0 main_arg1 (ix3 (grid0.coords t 0) j d') :=
    funext fun j => funext fun d' => kblk_apply m hO 0 t 0 j d'
  have hv : (fun (j : Fin 1024) (d' : Fin 64) => vblk m hO 0 t (ix3 (0 : Fin 1) j d')) = fun j d' => V m 0 main_arg2 (ix3 (grid0.coords t 0) j d') :=
    funext fun j => funext fun d' => vblk_apply m hO 0 t 0 j d'
  rw [hq, hk, hv]
  rfl

/-- What point t writes back is the attention function read through t's block. -/
theorem flushed_eq (c : Dev nD) (t : Fin (cfgM m hO).N) (_ : ((cfgM m hO).win 3).flush t = true) :
    (dats m hO 0 c).flushed 3 t = (((cfgM m hO).win 3).blk t).view.read (Elt Ideal) (result m c) := by
  show ((cfgM m hO).win 3).cut ((cfgM m hO).grid.coords t) ((dats m hO 0 c).after 3 t) = _
  rw [after0_3]
  show outsAt0 m hO c t = oread m hO t (result m c)
  funext y
  obtain ⟨u, i, d, rfl⟩ : ∃ (u : Fin 1) (i : Fin 1024) (d : Fin 64), y = ix3 u i d := ⟨y 0, y 1, y 2, eq_ix3 y⟩
  exact (outs_apply m hO c t u i d).trans (oread_apply m hO t (result m c) u i d).symm

/-! ## The blocks cover the array -/

/-- Entry x lies in the block of the point whose batch coordinate is x 0: on the batch axis the block is the one
    index x 0, on the other two axes it is the whole axis. -/
theorem cover (x : S64x1024x64.Idx) :
    ∃ t : Fin (cfgM m hO).N, ((cfgM m hO).win 3).flush t = true ∧ x ∈ (((cfgM m hO).win 3).blk t).view.set := by
  have hx0 : (x 0).val < 64 := (x 0).isLt
  have hx1 : (x 1).val < 1024 := (x 1).isLt
  have hx2 : (x 2).val < 64 := (x 2).isLt
  obtain ⟨t0, ht0⟩ : ∃ t0 : Fin grid0.N, t0.val = (x 0).val := ⟨⟨(x 0).val, by rw [N_0]; exact hx0⟩, rfl⟩
  have hc : (grid0.coords t0 0).val = (x 0).val := (coord_val t0).trans ht0
  have hw := word_coord (grid0.coords t0)
  refine ⟨t0, flush0_3 (adm m hO) t0, ?_⟩
  show x ∈ ((View.whole main_v0).slice (((cfgM m hO).win 3).rect t0)).set
  have e := View.set_slice_whole main_v0 (((cfgM m hO).win 3).rect t0)
  rw [e]
  refine Rect.mem_set_unit.mpr fun a => ?_
  match a with
  | ⟨0, _⟩ =>
    show (BitVec.ofNat 32 (grid0.coords t0 0).val).toNat * 1 ≤ (x 0).val ∧ (x 0).val < (BitVec.ofNat 32 (grid0.coords t0 0).val).toNat * 1 + 1
    rw [hw, hc]
    omega
  | ⟨1, _⟩ =>
    show (0#32 : BitVec 32).toNat * 1024 ≤ (x 1).val ∧ (x 1).val < (0#32 : BitVec 32).toNat * 1024 + 1024
    simp
    exact hx1
  | ⟨2, _⟩ =>
    show (0#32 : BitVec 32).toNat * 64 ≤ (x 2).val ∧ (x 2).val < (0#32 : BitVec 32).toNat * 64 + 64
    simp
    exact hx2

/-- So the output array ends holding the attention function of the argument arrays. -/
theorem final (c : Dev nD) : (dats m hO 0 c).arrAt 3 (cfgM m hO).N = result m c :=
  (dats m hO 0 c).arrAt_eq_of_cover 3 (result m c) (flushed_eq m hO c) (cover m hO)

/-! ## The run, with its result named -/

/-- Every weakly fair execution of the kernel program terminates with the result array at the attention function of
    the argument arrays and the argument arrays as they were. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m (tables_ok m) c),
      ((h c).1 0).trans (((dats m (tables_ok m) 0 c).arrAt_in 0 rfl _).trans ((A_eq m (tables_ok m) c 0).trans (V_main_arg0 m c))),
      ((h c).1 1).trans (((dats m (tables_ok m) 0 c).arrAt_in 1 rfl _).trans ((A_eq m (tables_ok m) c 1).trans (V_main_arg1 m c))),
      ((h c).1 2).trans (((dats m (tables_ok m) 0 c).arrAt_in 2 rfl _).trans ((A_eq m (tables_ok m) c 2).trans (V_main_arg2 m c))),
      ((h c).2 main_arg3 (by decide : main_arg3 ∈ Pipeline.restRefs sig spec0)).trans (V_main_arg3 m c)⟩)
    (run_main m ρ (tables_ok m))

end Cert.KernelIdeal.KernelValue

end
-- ==== Proof.ReferenceValue.lean ====
/-
  The reference's result, at the ideal values, is `Cert.Attention.attention` of its arguments.

  The reference computes, for the whole [64, 1024, 64] arrays at once, the batched inner products of query and key rows,
  divides them by 8, replaces the entries whose key position is not below the batch entry's length by -10⁶, takes a
  softmax along the last axis (maximum from -∞ joined with -∞, subtract, exponentiate, sum from 0, divide) and contracts
  the weights with the value rows.  Read at explicit coordinates (b, i, j) stage by stage: the masked scores are
  `score` (the division by 8 is the product with 1/8), the row maximum is the fold of `max` over the row, the quotient
  is the row's softmax weight, and the last contraction is `attend`.
-/
import proofs.«431440_j6030134084023_1_alg».proof.Proof.Gen.ReferenceIdeal.Read
import proofs.«431440_j6030134084023_1_alg».proof.Proof.Attention
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx
open Cert.Lib.SoftmaxRows Cert.Attention

variable (q k v : (⟨S64x1024x64, .f32⟩ : BufTy).Contents (Elt Ideal)) (vl : (⟨S64, .i32⟩ : BufTy).Contents (Elt Ideal))

/-- The masked scores at (b, i, j): key position j's score against query row (b, i) under batch b's length. -/
theorem masked_apply (b : Fin 64) (i j : Fin 1024) :
    val_main_v9 (F := Ideal) q k vl (ix3 b i j)
      = score (vl (ix1 b)) (fun d => q (ix3 b i d)) (fun j' d => k (ix3 b j' d)) j := by
  rw [val_main_v9_apply, val_main_call0_v1_apply, val_main_v8_apply, val_main_v6_apply, val_main_v4_apply, val_main_v3_apply,
    val_main_v7_apply, val_main_v5_apply, val_main_v2_apply, val_main_v0_apply, val_main_v1_apply, val_main_cst_apply,
    val_main_call0_v2_apply, val_main_call0_v0_apply, val_main_cst_0_apply]
  have e1 : idx_main_v5 (idx_main_v7 (idx_main_call0_v1 (ix3 b i j))) = ix1 b :=
    funext fun a => by match a with | ⟨0, _⟩ => rfl
  have e2 : ∀ d : Fin 64, lidx_main_v0 (ix3 b i j) d = ix3 b i d := fun d =>
    funext fun a => by match a with | ⟨0, _⟩ => rfl | ⟨1, _⟩ => rfl | ⟨2, _⟩ => rfl
  have e3 : ∀ d : Fin 64, ridx_main_v0 (ix3 b i j) d = ix3 b j d := fun d =>
    funext fun a => by match a with | ⟨0, _⟩ => rfl | ⟨1, _⟩ => rfl | ⟨2, _⟩ => rfl
  simp only [e1, e2, e3]
  unfold score
  show Scalar.select _ (Ideal.div _ (Ideal.ofBits .f32 0x41000000#32)) _ = _
  rw [div_eight]
  rfl

/-- The row maximum at (b, i): the fold of `max` from -∞ over the row's masked scores, joined with -∞. -/
theorem rowmax_apply (b : Fin 64) (i : Fin 1024) :
    val_main_v12 (F := Ideal) q k vl (ix2 b i) = rowTop fun j => val_main_v9 (F := Ideal) q k vl (ix3 b i j) := by
  have hR : S64x1024x1024.Reduces [2] S64x1024 := by decide
  rw [val_main_v12_apply, val_main_v11_apply, val_main_cst_2_apply]
  unfold rowTop val_main_v10
  refine congrArg (max negInf) ?_
  exact hostRowMax_apply (val_main_v9 (F := Ideal) q k vl) (val_main_cst_1 (F := Ideal))
    reducesTo_S64x1024x1024_S64x1024_d2 hR h_S_ b i

/-- The exponential at (b, i, j): of the masked score less its row's maximum. -/
theorem exp_apply (b : Fin 64) (i j : Fin 1024) :
    val_main_v16 (F := Ideal) q k vl (ix3 b i j)
      = Ideal.exp (val_main_v9 (F := Ideal) q k vl (ix3 b i j) - rowTop fun j' => val_main_v9 (F := Ideal) q k vl (ix3 b i j')) := by
  rw [val_main_v16_apply, val_main_v15_apply, val_main_v14_apply, val_main_v13_apply]
  have e : idx_main_v13 (idx_main_v14 (ix3 b i j)) = ix2 b i :=
    funext fun a => by match a with | ⟨0, _⟩ => rfl | ⟨1, _⟩ => rfl
  rw [e, rowmax_apply]
  rfl

/-- The softmax weight at (b, i, j). -/
theorem weight_apply (b : Fin 64) (i j : Fin 1024) :
    val_main_v20 (F := Ideal) q k vl (ix3 b i j) = rowWeight (fun j' => val_main_v9 (F := Ideal) q k vl (ix3 b i j')) j := by
  rw [val_main_v20_apply, val_main_v19_apply, val_main_v18_apply, val_main_v17_apply, val_main_cst_3_apply]
  have e : ∀ j' : Fin 1024, idx_main_v17 (idx_main_v18 (idx_main_v19 (ix3 b i j))) j' = ix3 b i j' := fun j' =>
    funext fun a => by match a with | ⟨0, _⟩ => rfl | ⟨1, _⟩ => rfl | ⟨2, _⟩ => rfl
  simp only [e, exp_apply]
  unfold rowWeight
  show Ideal.div _ (Ideal.ofBits .f32 0x00000000#32 + _) = _
  rw [Ideal.ofBits_zero_f32, zero_add]

/-- The reference's result is the attention function of its arguments. -/
theorem result_eq : val_main_v21 (F := Ideal) q k v vl = attention q k v vl := by
  funext x
  obtain ⟨b, i, d, rfl⟩ : ∃ (b : Fin 64) (i : Fin 1024) (d : Fin 64), x = ix3 b i d := ⟨x 0, x 1, x 2, eq_ix3 x⟩
  rw [val_main_v21_apply]
  unfold attention attend
  refine Finset.sum_congr rfl fun j _ => ?_
  have e1 : lidx_main_v21 (ix3 b i d) j = ix3 b i j :=
    funext fun a => by match a with | ⟨0, _⟩ => rfl | ⟨1, _⟩ => rfl | ⟨2, _⟩ => rfl
  have e2 : ridx_main_v21 (ix3 b i d) j = ix3 b j d :=
    funext fun a => by match a with | ⟨0, _⟩ => rfl | ⟨1, _⟩ => rfl | ⟨2, _⟩ => rfl
  rw [e1, e2, weight_apply]
  refine congrArg (· * v (ix3 b j d)) ?_
  refine congrArg (fun r => rowWeight r j) ?_
  funext j'
  exact masked_apply q k vl b i j'

end Cert.ReferenceIdeal.RefValue

end
-- ==== Proof.lean ====
/-
  Scaled dot-product attention with a length mask: a kernel that handles one batch entry per grid point against the
  batched reference, equal over the extended reals.

  Both programs compute, for query row (b, i), the scores ⟨q, k j⟩ · (1/8) of the key positions j below the batch entry's
  length and -10⁶ elsewhere, their softmax along j, and the weighted sum of the value rows (Proof/Attention.lean).  The
  kernel takes the inner products by a matrix product with the transposed key slab, scales by the exact constant 0.125,
  and narrows to bf16 before each product, which is the identity on exact values; the reference divides by the exact
  constant 8.  On the extended reals division by 8 is multiplication by 1/8 at every argument, so the two score
  functions are one, and everything after the scores is the same sequence of operations read row by row
  (Proof/LibSoftmaxRows.lean).  No step uses that the inputs are finite.

  The kernel's side is assembled from one run of its body (Proof/BlockRun.lean), the body's stored value entry by entry
  (Proof/BlockValue.lean) and the slabs' cover of the result array (Proof/KernelValue.lean); the reference's side reads
  its run stage by stage (Proof/ReferenceValue.lean).  The frames are the kernel programs' frame runs, whose side
  condition on the prefetched table of lengths is empty because no index map reads the table, and the reference's run
  with its result dropped.  The idealization rewrote no operation, so there is nothing to preserve.
-/
import proofs.«431440_j6030134084023_1_alg».proof.Defs
import proofs.«431440_j6030134084023_1_alg».proof.Proof.Gen.Kernel
import proofs.«431440_j6030134084023_1_alg».proof.Proof.Gen.Kernel.Skeleton
import proofs.«431440_j6030134084023_1_alg».proof.Proof.Gen.Kernel.Launch
import proofs.«431440_j6030134084023_1_alg».proof.Proof.Gen.Kernel.Points
import proofs.«431440_j6030134084023_1_alg».proof.Proof.Gen.Kernel.Frame
import proofs.«431440_j6030134084023_1_alg».proof.Proof.Gen.KernelIdeal
import proofs.«431440_j6030134084023_1_alg».proof.Proof.Gen.KernelIdeal.Skeleton
import proofs.«431440_j6030134084023_1_alg».proof.Proof.Gen.KernelIdeal.Launch
import proofs.«431440_j6030134084023_1_alg».proof.Proof.Gen.KernelIdeal.Points
import proofs.«431440_j6030134084023_1_alg».proof.Proof.Gen.KernelIdeal.Frame
import proofs.«431440_j6030134084023_1_alg».proof.Proof.Gen.ReferenceIdeal
import proofs.«431440_j6030134084023_1_alg».proof.Proof.Gen.ReferenceIdeal.Run
import proofs.«431440_j6030134084023_1_alg».proof.Proof.Gen.ReferenceIdeal.Read
import proofs.«431440_j6030134084023_1_alg».proof.Proof.Gen.Pre_finite_inputs
import proofs.«431440_j6030134084023_1_alg».proof.Proof.KernelValue
import proofs.«431440_j6030134084023_1_alg».proof.Proof.ReferenceValue
import Idealize.ShloMosaic.Adequacy
import Idealize.ShloMosaic.Init

noncomputable section

namespace Cert.Proof

open Idealize.ShloMosaic Idealize.SL.Sem

/-- The word-level kernel's table side condition is empty as well: its index maps are the same. -/
theorem kernel_tables_ok (m : (ℓ : Loc Cert.Kernel.nD Cert.Kernel.τ Cert.Kernel.sig) → Buf (Elt Bits) ℓ) :
    Cert.Kernel.Gen.Ok m := by
  show Cert.Kernel.ok0 (Cert.Kernel.Gen.tbl m)
  unfold Cert.Kernel.ok0
  trivial

theorem frame_kernel : Cert.frame_Kernel := fun m ρ _ => Cert.Kernel.Gen.frame m ρ (kernel_tables_ok m)

theorem frame_kernelIdeal : Cert.frame_KernelIdeal := fun m ρ _ =>
  Cert.KernelIdeal.Gen.frame m ρ (Cert.KernelIdeal.KernelValue.tables_ok m)

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's ledger is empty. -/
theorem preserves : Cert.preserves_Kernel_KernelIdeal := trivial

/-- From memories that agree on the arguments the kernel leaves the attention function of its arguments
    (Proof/KernelValue.lean) and the reference the attention function of its own (Proof/ReferenceValue.lean): one array. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
